-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S5000x64 : Shape := ⟨2, ![5000, 64]⟩

abbrev nBuf : Space → Nat
  | .hbm => 36
  | .vmem => 9
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x64, .f32⟩
  | .hbm, ⟨33, _⟩ => ⟨S100000x64, .f32⟩
  | .hbm, ⟨34, _⟩ => ⟨S1x64, .f32⟩
  | .hbm, ⟨35, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v22) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 43
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x64, .f32⟩
  | .hbm, ⟨33, _⟩ => ⟨S100000x64, .f32⟩
  | .hbm, ⟨34, _⟩ => ⟨S100000x64, .f32⟩
  | .hbm, ⟨35, _⟩ => ⟨S1x64, .f32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S_, .f32⟩
  | .hbm, ⟨41, _⟩ => ⟨S100000x64, .f32⟩
  | .hbm, ⟨42, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_cst : Ref sig .tc := ⟨.hbm, 40, rfl⟩
abbrev main_call0_v0 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.BlockEntry.lean ====
/-
  One block of the layer, entry by entry, at the exact instance.

  The kernel body works on a block of 5000 rows: with `a` the block of the neighbour means, `x` the block of the
  node features, `wl`, `wr` the two 64 × 64 weight matrices and `b` the bias row, it stores

      max ((a · wl + x · wr) + b, 0).

  Over the extended reals the narrowing of the four matrix operands to bf16 is the identity, and a product
  accumulated into the zero matrix is the plain inner product of a row with a column.  So entry (p, q) of what the
  body stores is

      max ((∑ₖ a[p,k] · wl[k,q] + ∑ₖ x[p,k] · wr[k,q]) + b[0,q], 0).
-/
import proofs.«101242_j86749749444729_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.TcCoe Idealize.ShloMosaic.ValueIdx

/-! ## The block product's operand indices -/

/-- The left operand is read in the output entry's row … -/
theorem lhs_blk_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … at the summation index; -/
theorem lhs_blk_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right operand at the summation index … -/
theorem rhs_blk_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- … in the output entry's column. -/
theorem rhs_blk_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A 5000 × 64 block times a 64 × 64 matrix, accumulated into zero, read at (p, q): row p of the block against
    column q of the matrix. -/
theorem blockProduct_apply {φ₁ φ₂ : FTy} (a : FVec Ideal S5000x64 φ₁) (w : FVec Ideal S64x64 φ₂) (p : Fin 5000) (q : Fin 64) :
    matmul dot_S5000x64_S64x64_S5000x64_1_0_0_1_n_n none a w (constant (F := Ideal) S5000x64 .f32 0x00000000#32) (ix2 p q)
      = ∑ k : Fin 64, a (ix2 p k) * w (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun d => Fin.ext (by
    match d with
    | ⟨0, _⟩ => exact lhs_blk_0 _ _
    | ⟨1, _⟩ => exact (lhs_blk_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun d => Fin.ext (by
    match d with
    | ⟨0, _⟩ => exact (rhs_blk_0 _ _).trans hk
    | ⟨1, _⟩ => exact rhs_blk_1 _ _)
  rw [el, er]

/-! ## The bias row spread over the block -/

/-- The 1 × 64 bias row broadcast to the block, read at (p, q), is the row's entry q. -/
theorem biasRows_apply (b : FVec Ideal S1x64 .f32) (p : Fin 5000) (q : Fin 64) :
    broadcastTo S5000x64 b broadcasts_S1x64_S5000x64 (ix2 p q) = b (ix2 (0 : Fin 1) q) :=
  broadcastTo_apply b broadcasts_S1x64_S5000x64 (ix2 p q) (ix2 (0 : Fin 1) q) (fun d => match d with
    | ⟨0, _⟩ => by show (0 : Nat) = if (1 : Nat) = 1 then 0 else _; rw [if_pos rfl]
    | ⟨1, _⟩ => by show q.val = if (64 : Nat) = 1 then 0 else q.val; rw [if_neg (by decide)])

/-! ## What the body stores, at an entry -/

/-- Entry (p, q) of the body's stored block. -/
theorem stored_apply (a x : Vec Ideal S5000x64 .f32) (wl wr : Vec Ideal S64x64 .f32) (b : Vec Ideal S1x64 .f32)
    (p : Fin 5000) (q : Fin 64) :
    k0_pay1 a x wl wr b (ix2 p q)
      = max ((∑ k : Fin 64, a (ix2 p k) * wl (ix2 k q) + ∑ k : Fin 64, x (ix2 p k) * wr (ix2 k q)) + b (ix2 (0 : Fin 1) q)) 0 := by
  unfold k0_pay1
  show FloatOps.maximumf (FloatOps.addf (FloatOps.addf _ _) _) _ = _
  rw [blockProduct_apply, blockProduct_apply, shapeCast_self, biasRows_apply]
  simp only [truncf_apply, shapeCast_self, Ideal.maximumf_def, Ideal.addf_def, broadcast_apply]
  show max _ (Ideal.ofBits .f32 0x00000000#32) = _
  rw [Ideal.ofBits_zero_f32]

end Cert.KernelIdeal.Hand

end
-- ==== Proof.Layer.lean ====
/-
  The layer, as one function of its argument arrays.

  With `mean` the 100000 × 64 array of neighbour means, `x` the node features, `wl`, `wr` the two 64 × 64 weight
  matrices and `b` the bias, entry (r, q) of the output is

      max ((∑ₖ mean[r,k] · wl[k,q] + ∑ₖ x[r,k] · wr[k,q]) + b[q], 0)

  over the extended reals.  The two programs add the three terms in different orders; addition of extended reals is
  commutative and associative (also at the infinities), so the order does not matter: `entry_bias_first`.
-/
import Idealize.ShloMosaic.PureOps.Ideal
import Idealize.ShloMosaic.Lib.ValueIdx

noncomputable section

namespace Cert.Sage

open Idealize.ShloMosaic Idealize.ShloMosaic.ValueIdx

/-- Node features and neighbour means: 100000 nodes, 64 features. -/
abbrev NodeFeat : Shape := ⟨2, ![100000, 64]⟩
/-- A weight matrix: 64 × 64. -/
abbrev Weight : Shape := ⟨2, ![64, 64]⟩

/-- Entry (r, q) of the layer's output: both products first, then the bias, then the rectifier. -/
def entry (mean x : NodeFeat.Idx → EReal) (wl wr : Weight.Idx → EReal) (b : Fin 64 → EReal) (r : Fin 100000) (q : Fin 64) : EReal :=
  max ((∑ k : Fin 64, mean (ix2 r k) * wl (ix2 k q) + ∑ k : Fin 64, x (ix2 r k) * wr (ix2 k q)) + b q) 0

/-- The layer's output array. -/
def layer (mean x : NodeFeat.Idx → EReal) (wl wr : Weight.Idx → EReal) (b : Fin 64 → EReal) : NodeFeat.Idx → EReal :=
  fun i => entry mean x wl wr b (i 0) (i 1)

/-- Adding the bias to the first product before the second product is added gives the same entry. -/
theorem entry_bias_first (mean x : NodeFeat.Idx → EReal) (wl wr : Weight.Idx → EReal) (b : Fin 64 → EReal) (r : Fin 100000) (q : Fin 64) :
    max ((∑ k : Fin 64, mean (ix2 r k) * wl (ix2 k q) + b q) + ∑ k : Fin 64, x (ix2 r k) * wr (ix2 k q)) 0
      = entry mean x wl wr b r q := by
  unfold entry
  rw [add_right_comm]

end Cert.Sage

end
-- ==== Proof.LayerArray.lean ====
/-
  From blocks to the whole array, on the kernel's side.

  The grid has 20 points; point t works on rows 5000·t … 5000·t + 4999.  Its two row-blocked inputs (the neighbour
  means, which the host operations of @main compute before the call, and the node features) are read at block t, the
  two weight matrices and the bias row whole.  So what point t writes back is rows 5000·t … of the layer's output
  (`Cert.Sage.layer`) of the arrays as the call finds them, and the 20 blocks tile the 100000 rows: after the run
  the result array IS the layer's output.
-/
import proofs.«101242_j86749749444729_1_alg».proof.Proof.Gen.KernelIdeal.Value
import proofs.«101242_j86749749444729_1_alg».proof.Proof.BlockEntry
import proofs.«101242_j86749749444729_1_alg».proof.Proof.Layer
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Value

/-! ## What the host operations before the call leave -/

/-- The neighbour means as @main computes them from the node features `x` and the edge list `e`: the rows of `x`
    gathered at the edges' sources, added up at the edges' destinations, and divided by the destinations' edge counts
    (at least one). -/
def neighbourMean {F : FTy → Type} [FloatOps F] (x : (⟨S100000x64, .f32⟩ : BufTy).Contents (Elt F)) (e : (⟨S2x1600000, .i32⟩ : BufTy).Contents (Elt F)) :
    (⟨S100000x64, .f32⟩ : BufTy).Contents (Elt F) :=
  Host.divf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (Host.gather gather_S100000x64_S1600000x1_S1600000x64_1_0_n_n_0_1_164 x (broadcastInDim S1600000x1 ![0] bcast_S1600000_S1600000x1_0 (select (cmpi .slt (shapeCast _ (extractStridedSlice S1x1600000 ![0, 0] e slices_S2x1600000_S1x1600000_0_0) shapeCasts_S1x1600000_S1600000) (broadcastInDim S1600000 ![] bcast_S_S1600000 (constantI S_ 32 0#32))) (addi (shapeCast _ (extractStridedSlice S1x1600000 ![0, 0] e slices_S2x1600000_S1x1600000_0_0) shapeCasts_S1x1600000_S1600000) (broadcastInDim S1600000 ![] bcast_S_S1600000 (constantI S_ 32 100000#32))) (shapeCast _ (extractStridedSlice S1x1600000 ![0, 0] e slices_S2x1600000_S1x1600000_0_0) shapeCasts_S1x1600000_S1600000))))) (broadcastInDim S100000x64 ![0, 1] bcast_S100000x1_S100000x64_0_1 (broadcastInDim S100000x1 ![0] bcast_S100000_S100000x1_0 (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (broadcastInDim S1600000 ![] bcast_S_S1600000 (constant S_ .f32 0x3F800000#32))) (broadcastInDim S100000 ![] bcast_S_S100000 (constant S_ .f32 0x3F800000#32)))))

variable (m : (ℓ : Loc nD τ sig) → Buf (Elt Ideal) ℓ) (ρ : Dev nD → PrngReg)

set_option maxHeartbeats 2000000 in
/-- The call's first operand holds the neighbour means of the arguments. -/
theorem V_mean (c : Dev nD) :
    (V m c main_v22 : S100000x64.Idx → Elt Ideal .f32) = neighbourMean (F := Ideal) (m ((c : Thread nD τ).loc main_arg0)) (m ((c : Thread nD τ).loc main_arg1)) := by
  dsimp only [Gen.V, Gen.hostOps0]
  after_results_simp <;> rfl

set_option maxHeartbeats 2000000 in
/-- The call's last operand holds the bias as one row. -/
theorem V_biasRow (c : Dev nD) :
    (V m c main_v23 : S1x64.Idx → Elt Ideal .f32) = shapeCast S1x64 (m ((c : Thread nD τ).loc main_arg3)) shapeCasts_S64_S1x64 := by
  dsimp only [Gen.V, Gen.hostOps0]
  after_results_simp <;> rfl

/-! ## The index maps -/

theorem hz : (![0, 0] : Fin 2 → Nat) = fun _ => 0 := funext fun a => by fin_cases a <;> rfl

/-- The printed index maps, decided over the 20 points: the row-blocked windows are at block t, the others at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem row_lt (t : Fin cfg0.N) (p : Fin 5000) : 5000 * t.val + p.val < 100000 := by
  have ht : t.val < 20 := lt_of_lt_of_eq t.isLt (N_0 : cfg0.N = 20)
  have hp := p.isLt
  omega

/-! ## Each input block as part of its array -/

/-- Entry (p, k) of block t of a row-blocked window is entry (5000·t + p, k) of its array: the neighbour means, -/
theorem meanBlock_emb (t : Fin cfg0.N) (p : Fin 5000) (k : Fin 64) :
    (((cfg0.win 0).blk t).view.emb (ix2 p k) : S100000x64.Idx) = ix2 (⟨5000 * t.val + p.val, row_lt t p⟩ : Fin 100000) k := by
  obtain ⟨e0, e1, -⟩ := idx_facts t
  funext a
  apply Fin.ext
  match a with
  | ⟨0, _⟩ => show win0_0.index t (0 : Fin 2) * 5000 + 1 * p.val = 5000 * t.val + p.val; rw [e0]; omega
  | ⟨1, _⟩ => show win0_0.index t (1 : Fin 2) * 64 + 1 * k.val = k.val; rw [e1]; omega

/-- the node features, -/
theorem featBlock_emb (t : Fin cfg0.N) (p : Fin 5000) (k : Fin 64) :
    (((cfg0.win 1).blk t).view.emb (ix2 p k) : S100000x64.Idx) = ix2 (⟨5000 * t.val + p.val, row_lt t p⟩ : Fin 100000) k := by
  obtain ⟨-, -, e0, e1, -⟩ := idx_facts t
  funext a
  apply Fin.ext
  match a with
  | ⟨0, _⟩ => show win0_1.index t (0 : Fin 2) * 5000 + 1 * p.val = 5000 * t.val + p.val; rw [e0]; omega
  | ⟨1, _⟩ => show win0_1.index t (1 : Fin 2) * 64 + 1 * k.val = k.val; rw [e1]; omega

/-- and the output. -/
theorem outBlock_emb (t : Fin cfg0.N) (p : Fin 5000) (q : Fin 64) :
    (((cfg0.win 5).blk t).view.emb (ix2 p q) : S100000x64.Idx) = ix2 (⟨5000 * t.val + p.val, row_lt t p⟩ : Fin 100000) q := by
  obtain ⟨-, -, -, -, -, -, -, -, -, -, e0, e1⟩ := idx_facts t
  funext a
  apply Fin.ext
  match a with
  | ⟨0, _⟩ => show win0_5.index t (0 : Fin 2) * 5000 + 1 * p.val = 5000 * t.val + p.val; rw [e0]; omega
  | ⟨1, _⟩ => show win0_5.index t (1 : Fin 2) * 64 + 1 * q.val = q.val; rw [e1]; omega

/-- The two weight matrices and the bias row are read whole at every point: block 0 of a one-block array. -/
theorem wlBlock_emb (t : Fin cfg0.N) (k q : Fin 64) :
    (((cfg0.win 2).blk t).view.emb (ix2 k q) : S64x64.Idx) = ix2 k q := by
  obtain ⟨-, -, -, -, e0, e1, -⟩ := idx_facts t
  funext a
  apply Fin.ext
  match a with
  | ⟨0, _⟩ => show win0_2.index t (0 : Fin 2) * 64 + 1 * k.val = k.val; rw [e0]; omega
  | ⟨1, _⟩ => show win0_2.index t (1 : Fin 2) * 64 + 1 * q.val = q.val; rw [e1]; omega

theorem wrBlock_emb (t : Fin cfg0.N) (k q : Fin 64) :
    (((cfg0.win 3).blk t).view.emb (ix2 k q) : S64x64.Idx) = ix2 k q := by
  obtain ⟨-, -, -, -, -, -, e0, e1, -⟩ := idx_facts t
  funext a
  apply Fin.ext
  match a with
  | ⟨0, _⟩ => show win0_3.index t (0 : Fin 2) * 64 + 1 * k.val = k.val; rw [e0]; omega
  | ⟨1, _⟩ => show win0_3.index t (1 : Fin 2) * 64 + 1 * q.val = q.val; rw [e1]; omega

theorem biasBlock_emb (t : Fin cfg0.N) (q : Fin 64) :
    (((cfg0.win 4).blk t).view.emb (ix2 (0 : Fin 1) q) : S1x64.Idx) = ix2 (0 : Fin 1) q := by
  obtain ⟨-, -, -, -, -, -, -, -, e0, e1, -⟩ := idx_facts t
  funext a
  apply Fin.ext
  match a with
  | ⟨0, _⟩ => show win0_4.index t (0 : Fin 2) * 1 + 1 * 0 = 0; rw [e0]
  | ⟨1, _⟩ => show win0_4.index t (1 : Fin 2) * 64 + 1 * q.val = q.val; rw [e1]; omega

/-! ## What each point writes back, and the array after the run -/

/-- What the body stores at point t, when its five inputs are blocks of ANY five arrays `A0 … A4` (the two
    row-blocked ones at block t, the others whole), is block t of the layer's output of those arrays. -/
theorem flushed_core (t : Fin cfg0.N) (A0 A1 : S100000x64.Idx → Elt Ideal .f32) (A2 A3 : S64x64.Idx → Elt Ideal .f32)
    (A4 : S1x64.Idx → Elt Ideal .f32) :
    (cfg0.win 5).cut (grid0.coords t) (out0_5 (((cfg0.win 0).blk t).view.read (Elt Ideal) A0) (((cfg0.win 1).blk t).view.read (Elt Ideal) A1)
        (((cfg0.win 2).blk t).view.read (Elt Ideal) A2) (((cfg0.win 3).blk t).view.read (Elt Ideal) A3) (((cfg0.win 4).blk t).view.read (Elt Ideal) A4))
      = ((cfg0.win 5).blk t).view.read (Elt Ideal) (Cert.Sage.layer A0 A1 A2 A3 (fun q => A4 (ix2 (0 : Fin 1) q))) := by
  unfold out0_5
  rw [View.canon_unit_zero hz]
  simp only [View.ld_unit_zero (S := S5000x64) hz, View.ld_unit_zero (S := S64x64) hz, View.ld_unit_zero (S := S1x64) hz]
  refine funext fun (j : S5000x64.Idx) => ?_
  obtain ⟨p, q, rfl⟩ : ∃ (p : Fin 5000) (q : Fin 64), j = ix2 p q := ⟨j 0, j 1, eq_ix2 j⟩
  show k0_pay1 (((cfg0.win 0).blk t).view.read (Elt Ideal) A0) (((cfg0.win 1).blk t).view.read (Elt Ideal) A1)
        (((cfg0.win 2).blk t).view.read (Elt Ideal) A2) (((cfg0.win 3).blk t).view.read (Elt Ideal) A3) (((cfg0.win 4).blk t).view.read (Elt Ideal) A4) (ix2 p q)
    = Cert.Sage.layer A0 A1 A2 A3 (fun q => A4 (ix2 (0 : Fin 1) q)) (((cfg0.win 5).blk t).view.emb (ix2 p q))
  rw [outBlock_emb t p q]
  refine (stored_apply (((cfg0.win 0).blk t).view.read (Elt Ideal) A0) (((cfg0.win 1).blk t).view.read (Elt Ideal) A1)
        (((cfg0.win 2).blk t).view.read (Elt Ideal) A2) (((cfg0.win 3).blk t).view.read (Elt Ideal) A3) (((cfg0.win 4).blk t).view.read (Elt Ideal) A4) p q).trans ?_
  show max ((∑ k : Fin 64, A0 (((cfg0.win 0).blk t).view.emb (ix2 p k)) * A2 (((cfg0.win 2).blk t).view.emb (ix2 k q))
        + ∑ k : Fin 64, A1 (((cfg0.win 1).blk t).view.emb (ix2 p k)) * A3 (((cfg0.win 3).blk t).view.emb (ix2 k q)))
        + A4 (((cfg0.win 4).blk t).view.emb (ix2 (0 : Fin 1) q))) (0 : EReal)
    = Cert.Sage.entry A0 A1 A2 A3 (fun q => A4 (ix2 (0 : Fin 1) q)) (⟨5000 * t.val + p.val, row_lt t p⟩ : Fin 100000) q
  unfold Cert.Sage.entry
  refine congrArg (fun s => max s (0 : EReal)) ?_
  refine congrArg₂ (· + ·) (congrArg₂ (· + ·) (Finset.sum_congr rfl fun k _ => ?_) (Finset.sum_congr rfl fun k _ => ?_)) ?_
  · exact congrArg₂ (· * ·) (congrArg A0 (meanBlock_emb t p k)) (congrArg A2 (wlBlock_emb t k q))
  · exact congrArg₂ (· * ·) (congrArg A1 (featBlock_emb t p k)) (congrArg A3 (wrBlock_emb t k q))
  · exact congrArg A4 (biasBlock_emb t q)

/-- The layer's output of the arrays as the call finds them. -/
def found (c : Dev nD) : S100000x64.Idx → Elt Ideal .f32 :=
  Cert.Sage.layer (V m c (Pipeline.arrRef spec0 0) : S100000x64.Idx → Elt Ideal .f32) (V m c (Pipeline.arrRef spec0 1) : S100000x64.Idx → Elt Ideal .f32)
    (V m c (Pipeline.arrRef spec0 2) : S64x64.Idx → Elt Ideal .f32) (V m c (Pipeline.arrRef spec0 3) : S64x64.Idx → Elt Ideal .f32)
    (fun q => (V m c (Pipeline.arrRef spec0 4) : S1x64.Idx → Elt Ideal .f32) (ix2 (0 : Fin 1) q))

/-- What point t writes back is block t of `found`. -/
theorem flushed_eq (c : Dev nD) (t : Fin cfg0.N) :
    (dats m 0 c).flushed 5 t = ((cfg0.win 5).blk t).view.read (Elt Ideal) (found m c) :=
  (Value.flushed5 m c t).trans (flushed_core t (V m c (Pipeline.arrRef spec0 0)) (V m c (Pipeline.arrRef spec0 1))
    (V m c (Pipeline.arrRef spec0 2)) (V m c (Pipeline.arrRef spec0 3)) (V m c (Pipeline.arrRef spec0 4)))

/-- An index of the result array is in point t's block iff each coordinate is in the block's range. -/
theorem mem_blk (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v24).slice (win0_5.rect t)).set ↔ _
  rw [View.set_slice_whole, Rect.mem_set_unit]
  exact Iff.rfl

/-- Row r of the result array is in the block of point r / 5000. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, lt_of_lt_of_eq (show (i 0).val / 5000 < 20 by omega) (N_0 : cfg0.N = 20).symm⟩, rfl⟩
  obtain ⟨-, -, -, -, -, -, -, -, -, -, e0, e1⟩ := idx_facts t
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; rw [e0, ht]; omega
  | ⟨1, _⟩ => show win0_5.index t (1 : Fin 2) * 64 ≤ (i 1).val ∧ (i 1).val < win0_5.index t (1 : Fin 2) * 64 + 64; rw [e1]; omega

/-- After the run the result array is `found`. -/
theorem final (c : Dev nD) : (dats m 0 c).arrAt 5 cfg0.N = found m c :=
  (dats m 0 c).arrAt_eq_of_cover 5 (found m c) (fun t _ => flushed_eq m c t) cover

/-! ## In terms of the arguments -/

/-- The bias row at column q is the bias at q. -/
theorem biasRow_apply (c : Dev nD) (q : Fin 64) :
    (V m c (Pipeline.arrRef spec0 4) : S1x64.Idx → Elt Ideal .f32) (ix2 (0 : Fin 1) q) = (m ((c : Thread nD τ).loc main_arg3) : S64.Idx → Elt Ideal .f32) (ix1 q) := by
  have h : (V m c (Pipeline.arrRef spec0 4) : S1x64.Idx → Elt Ideal .f32) = shapeCast S1x64 (m ((c : Thread nD τ).loc main_arg3)) shapeCasts_S64_S1x64 := V_biasRow m c
  rw [h]
  exact shapeCast_apply _ shapeCasts_S64_S1x64 (ix2 (0 : Fin 1) q) (ix1 q)
    (by rewrite [Shape.rowMajor_val_two, Shape.rowMajor_val_one]; show q.val = 0 * 64 + q.val; omega)

/-- The layer's output of the argument arrays, the neighbour means computed as @main does. -/
def result (c : Dev nD) : S100000x64.Idx → Elt Ideal .f32 :=
  Cert.Sage.layer (neighbourMean (F := Ideal) (m ((c : Thread nD τ).loc main_arg0)) (m ((c : Thread nD τ).loc main_arg1)))
    (m ((c : Thread nD τ).loc main_arg0) : S100000x64.Idx → Elt Ideal .f32)
    (m ((c : Thread nD τ).loc main_arg2) : S64x64.Idx → Elt Ideal .f32) (m ((c : Thread nD τ).loc main_arg4) : S64x64.Idx → Elt Ideal .f32)
    (fun q => (m ((c : Thread nD τ).loc main_arg3) : S64.Idx → Elt Ideal .f32) (ix1 q))

/-- The call finds the neighbour means in its first operand and the arguments in the others. -/
theorem found_eq (c : Dev nD) : found m c = result m c := by
  have h0 : (V m c (Pipeline.arrRef spec0 0) : S100000x64.Idx → Elt Ideal .f32)
      = neighbourMean (F := Ideal) (m ((c : Thread nD τ).loc main_arg0)) (m ((c : Thread nD τ).loc main_arg1)) := V_mean m c
  have h1 : (V m c (Pipeline.arrRef spec0 1) : S100000x64.Idx → Elt Ideal .f32) = m ((c : Thread nD τ).loc main_arg0) := V_main_arg0 m c
  have h2 : (V m c (Pipeline.arrRef spec0 2) : S64x64.Idx → Elt Ideal .f32) = m ((c : Thread nD τ).loc main_arg2) := V_main_arg2 m c
  have h3 : (V m c (Pipeline.arrRef spec0 3) : S64x64.Idx → Elt Ideal .f32) = m ((c : Thread nD τ).loc main_arg4) := V_main_arg4 m c
  have h4 : (fun q : Fin 64 => (V m c (Pipeline.arrRef spec0 4) : S1x64.Idx → Elt Ideal .f32) (ix2 (0 : Fin 1) q))
      = fun q => (m ((c : Thread nD τ).loc main_arg3) : S64.Idx → Elt Ideal .f32) (ix1 q) := funext (biasRow_apply m c)
  unfold found result
  rw [h0, h1, h2, h3, h4]

/-- The run, read: the result array ends holding the layer's output of the arguments, the arguments unchanged. -/
theorem run : θ_run defs (onTc (τ := τ) (main (F := Ideal))) ⟨m, fun _ => 0, ρ⟩ fun r => ∀ c : Dev nD,
      r.2.mem ((c : Thread nD τ).loc main_v24) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans ((final m c).trans (found_eq m c)), (h c).2⟩)
    (Cert.KernelIdeal.Value.run_blocks m ρ)

end Cert.KernelIdeal.Hand

end
-- ==== Proof.RefLayer.lean ====
/-
  The reference's result as the layer's output.

  The reference computes the neighbour means with the same host operations, then
  `mean · wl`, adds the bias (broadcast over the rows), adds `x · wr`, and takes the maximum with zero.  Read at an
  entry (r, q), with each product the inner product of a row with a column, that is

      max ((∑ₖ mean[r,k] · wl[k,q] + b[q]) + ∑ₖ x[r,k] · wr[k,q], 0),

  the layer's entry with the bias added before the second product (`Cert.Sage.entry_bias_first`).
-/
import proofs.«101242_j86749749444729_1_alg».proof.Proof.Gen.ReferenceIdeal.Read
import proofs.«101242_j86749749444729_1_alg».proof.Proof.Layer
import Idealize.ShloMosaic.Lib.ValueIdx
import Idealize.ShloMosaic.PureOps.Ideal.Laws

noncomputable section

open Idealize.ShloMosaic Idealize.ShloMosaic.TcCoe Idealize.ShloMosaic.ValueIdx

namespace Cert.ReferenceIdeal.Hand

open Cert.ReferenceIdeal Cert.ReferenceIdeal.Gen Cert.ReferenceIdeal.Read

/-- A product's left operand at output entry (r, q) and summation index k is read at (r, k), -/
theorem lidx23 (r : Fin 100000) (q k : Fin 64) : lidx_main_v23 (ix2 r q) k = ix2 r k :=
  funext fun a => Fin.ext (by match a with | ⟨0, _⟩ => rfl | ⟨1, _⟩ => rfl)
/-- its right operand at (k, q); -/
theorem ridx23 (r : Fin 100000) (q k : Fin 64) : ridx_main_v23 (ix2 r q) k = ix2 k q :=
  funext fun a => Fin.ext (by match a with | ⟨0, _⟩ => rfl | ⟨1, _⟩ => rfl)
/-- the same for the second product. -/
theorem lidx27 (r : Fin 100000) (q k : Fin 64) : lidx_main_v27 (ix2 r q) k = ix2 r k :=
  funext fun a => Fin.ext (by match a with | ⟨0, _⟩ => rfl | ⟨1, _⟩ => rfl)
theorem ridx27 (r : Fin 100000) (q k : Fin 64) : ridx_main_v27 (ix2 r q) k = ix2 k q :=
  funext fun a => Fin.ext (by match a with | ⟨0, _⟩ => rfl | ⟨1, _⟩ => rfl)
/-- The bias broadcast over the rows is read, at (r, q), at q. -/
theorem bidx (r : Fin 100000) (q : Fin 64) : idx_main_v24 (idx_main_v25 (ix2 r q)) = ix1 q :=
  funext fun a => Fin.ext (by match a with | ⟨0, _⟩ => rfl)

/-- The reference's result is the layer's output of its neighbour means and its arguments. -/
theorem result_eq_layer (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (x3 : (⟨S64, .f32⟩ : BufTy).Contents (Elt Ideal)) (x4 : (⟨S64x64, .f32⟩ : BufTy).Contents (Elt Ideal)) :
    val_main_v29 (F := Ideal) x0 x1 x2 x3 x4
      = Cert.Sage.layer (val_main_v22 (F := Ideal) x0 x1) x0 x2 x4 (fun q => x3 (ix1 q)) := by
  funext i
  obtain ⟨r, q, rfl⟩ : ∃ (r : Fin 100000) (q : Fin 64), i = ix2 r q := ⟨i 0, i 1, eq_ix2 i⟩
  rw [val_main_v29_apply, val_main_v28_apply, val_main_v26_apply, val_main_v23_apply, val_main_v27_apply, val_main_v25_apply,
    val_main_v24_apply, val_main_call0_v0_apply, val_main_call0_cst_apply]
  simp only [lidx23, ridx23, lidx27, ridx27, bidx, Ideal.maximumf_def, Ideal.addf_def]
  show max _ (Ideal.ofBits .f32 0x00000000#32) = Cert.Sage.entry _ _ _ _ _ r q
  rw [Ideal.ofBits_zero_f32, ← Cert.Sage.entry_bias_first]

end Cert.ReferenceIdeal.Hand

end
-- ==== Proof.lean ====
/-
  A mean-aggregation graph convolution followed by a rectifier, against its reference.

  Both programs first compute, with the same host operations, the neighbour means: the rows of the node features `x`
  gathered at the edges' sources, added up at the edges' destinations, and divided by the number of edges arriving
  there (at least one).  The kernel then computes, block of 5000 rows by block,

      max ((mean · W_l + x · W_r) + b, 0),

  and the reference computes, on whole arrays,

      max ((mean · W_l + b) + x · W_r, 0).

  Over the extended reals the kernel's narrowing of its matrix operands is the identity and each product is the plain
  inner product of a row with a column, so the two results differ only in the order in which three terms are added;
  addition of extended reals is commutative and associative, so they are equal, entry by entry, whatever the inputs.
  (The precondition is not used.)

  Layer.lean states the layer as one function of its arrays and proves the reordering; BlockEntry.lean reads the
  kernel body's stored block at an entry; LayerArray.lean assembles the 20 blocks into the result array and reads the
  call's operands back to the arguments; RefLayer.lean reads the reference's result at an entry.  Here: the neighbour
  means of the two programs are one term, and the claims.
-/
import proofs.«101242_j86749749444729_1_alg».proof.Defs
import proofs.«101242_j86749749444729_1_alg».proof.Proof.Gen.Kernel
import proofs.«101242_j86749749444729_1_alg».proof.Proof.Gen.Kernel.Skeleton
import proofs.«101242_j86749749444729_1_alg».proof.Proof.Gen.Kernel.Launch
import proofs.«101242_j86749749444729_1_alg».proof.Proof.Gen.Kernel.Points
import proofs.«101242_j86749749444729_1_alg».proof.Proof.Gen.Kernel.Frame
import proofs.«101242_j86749749444729_1_alg».proof.Proof.Gen.KernelIdeal
import proofs.«101242_j86749749444729_1_alg».proof.Proof.Gen.KernelIdeal.Skeleton
import proofs.«101242_j86749749444729_1_alg».proof.Proof.Gen.KernelIdeal.Launch
import proofs.«101242_j86749749444729_1_alg».proof.Proof.Gen.KernelIdeal.Points
import proofs.«101242_j86749749444729_1_alg».proof.Proof.Gen.KernelIdeal.Frame
import proofs.«101242_j86749749444729_1_alg».proof.Proof.Gen.ReferenceIdeal
import proofs.«101242_j86749749444729_1_alg».proof.Proof.Gen.Pre_finite_inputs
import proofs.«101242_j86749749444729_1_alg».proof.Proof.Gen.KernelIdeal.Value
import proofs.«101242_j86749749444729_1_alg».proof.Proof.Gen.ReferenceIdeal.Run
import proofs.«101242_j86749749444729_1_alg».proof.Proof.Gen.ReferenceIdeal.Read
import proofs.«101242_j86749749444729_1_alg».proof.Proof.LayerArray
import proofs.«101242_j86749749444729_1_alg».proof.Proof.RefLayer
import Idealize.ShloMosaic.Adequacy
import Idealize.ShloMosaic.Init

noncomputable section

namespace Cert.Proof

open Idealize.ShloMosaic Idealize.ShloMosaic.TcCoe Idealize.SL.Sem

/-- The two programs compute the neighbour means by the same operations of the same arguments: one term. -/
theorem mean_eq (x : (⟨Cert.KernelIdeal.S100000x64, .f32⟩ : BufTy).Contents (Elt Ideal)) (e : (⟨Cert.KernelIdeal.S2x1600000, .i32⟩ : BufTy).Contents (Elt Ideal)) :
    Cert.KernelIdeal.Hand.neighbourMean (F := Ideal) x e = Cert.ReferenceIdeal.Read.val_main_v22 (F := Ideal) x e := rfl

/-- The kernel as printed runs and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: it runs, and writes none of its arguments. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten when the kernel was read over the extended reals. -/
theorem preserves : Cert.preserves_Kernel_KernelIdeal := trivial

/-- Both programs end with the layer's output of the arguments in their result arrays. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  refine (Cert.ReferenceIdeal.Read.val_main_v29_eq _ _ _ _ _).trans ?_
  rw [Cert.ReferenceIdeal.Hand.result_eq_layer, a0, a1, a2, a3, a4]
  show _ = Cert.KernelIdeal.Hand.result m c
  unfold Cert.KernelIdeal.Hand.result
  rw [mean_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
